-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x1600000 : Shape := ⟨2, ![2, 1600000]⟩
abbrev S512x128 : Shape := ⟨2, ![512, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S50000x512 .f32) (main_arg1 : IVec S2x1600000 32) (main_arg2 : FVec F S512x128 .f32) (main_arg3 : FVec F S128 .f32) (main_arg4 : FVec F S128x1 .f32) (main_arg5 : FVec F S1 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S50000x512 : Shape := ⟨2, ![50000, 512]⟩
abbrev S2x1600000 : Shape := ⟨2, ![2, 1600000]⟩
abbrev S512x128 : Shape := ⟨2, ![512, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S2000x512 : Shape := ⟨2, ![2000, 512]⟩
abbrev S2000x128 : Shape := ⟨2, ![2000, 128]⟩
abbrev S1650000x128 : Shape := ⟨2, ![1650000, 128]⟩
abbrev S1x128 : Shape := ⟨2, ![1, 128]⟩
abbrev S128x128 : Shape := ⟨2, ![128, 128]⟩
abbrev S50000x1 : Shape := ⟨2, ![50000, 1]⟩
abbrev S1x1 : Shape := ⟨2, ![1, 1]⟩

abbrev nBuf : Space → Nat
  | .hbm => 94
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S50000, .i32⟩
  | .hbm, ⟨11, _⟩ => ⟨S1650000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S1650000, .i32⟩
  | .hbm, ⟨28, _⟩ => ⟨S1650000, .i1⟩
  | .hbm, ⟨29, _⟩ => ⟨S_, .i32⟩
  | .hbm, ⟨30, _⟩ => ⟨S1650000, .i32⟩
  | .hbm, ⟨31, _⟩ => ⟨S1650000, .i32⟩
  | .hbm, ⟨32, _⟩ => ⟨S1650000, .i32⟩
  | .hbm, ⟨33, _⟩ => ⟨S1650000x1, .i32⟩
  | .hbm, ⟨34, _⟩ => ⟨S1650000, .f32⟩
  | .hbm, ⟨35, _⟩ => ⟨S_, .i32⟩
  | .hbm, ⟨36, _⟩ => ⟨S1650000, .i32⟩
  | .hbm, ⟨37, _⟩ => ⟨S1650000, .i1⟩
  | .hbm, ⟨38, _⟩ => ⟨S_, .i32⟩
  | .hbm, ⟨39, _⟩ => ⟨S1650000, .i32⟩
  | .hbm, ⟨40, _⟩ => ⟨S1650000, .i32⟩
  | .hbm, ⟨41, _⟩ => ⟨S1650000, .i32⟩
  | .hbm, ⟨42, _⟩ => ⟨S1650000x1, .i32⟩
  | .hbm, ⟨43, _⟩ => ⟨S1650000, .f32⟩
  | .hbm, ⟨44, _⟩ => ⟨S1650000, .f32⟩
  | .hbm, ⟨45, _⟩ => ⟨S50000x128, .f32⟩
  | .hbm, ⟨46, _⟩ => ⟨S1650000x1, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x128, .f32⟩
  | .hbm, ⟨56, _⟩ => ⟨S1650000x128, .f32⟩
  | .hbm, ⟨57, _⟩ => ⟨S1650000x128, .f32⟩
  | .hbm, ⟨58, _⟩ => ⟨S_, .f32⟩
  | .hbm, ⟨59, _⟩ => ⟨S50000x128, .f32⟩
  | .hbm, ⟨60, _⟩ => ⟨S1650000x1, .i32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S128x128, .f32⟩
  | .hbm, ⟨70, _⟩ => ⟨S_, .i32⟩
  | .hbm, ⟨71, _⟩ => ⟨S1, .i32⟩
  | .hbm, ⟨72, _⟩ => ⟨S128x128, .f32⟩
  | .hbm, ⟨73, _⟩ => ⟨S50000x128, .f32⟩
  | .hbm, ⟨74, _⟩ => ⟨S50000x1, .f32⟩
  | .hbm, ⟨75, _⟩ => ⟨S1650000x1, .f32⟩
  | .hbm, ⟨76, _⟩ => ⟨S_, .i32⟩
  | .hbm, ⟨77, _⟩ => ⟨S1650000, .i32⟩
  | .hbm, ⟨78, _⟩ => ⟨S1650000, .i1⟩
  | .hbm, ⟨79, _⟩ => ⟨S_, .i32⟩
  | .hbm, ⟨80, _⟩ => ⟨S1650000, .i32⟩
  | .hbm, ⟨81, _⟩ => ⟨S1650000, .i32⟩
  | .hbm, ⟨82, _⟩ => ⟨S1650000, .i32⟩
  | .hbm, ⟨83, _⟩ => ⟨S1650000x1, .i32⟩
  | .hbm, ⟨84, _⟩ => ⟨S1650000x1, .f32⟩
  | .hbm, ⟨85, _⟩ => ⟨S1650000x1, .f32⟩
  | .hbm, ⟨86, _⟩ => ⟨S_, .f32⟩
  | .hbm, ⟨87, _⟩ => ⟨S50000x1, .f32⟩
  | .hbm, ⟨88, _⟩ => ⟨S1650000x1, .i32⟩
  | .hbm, ⟨89, _⟩ => ⟨S50000x1, .f32⟩
  | .hbm, ⟨90, _⟩ => ⟨S1x1, .f32⟩
  | .hbm, ⟨91, _⟩ => ⟨S50000x1, .f32⟩
  | .hbm, ⟨92, _⟩ => ⟨S50000x1, .f32⟩
  | .hbm, ⟨93, _⟩ => ⟨S50000, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S2000x128, .f32⟩
  | .local _ .vmem, ⟨9, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call1_cst : Ref sig .tc := ⟨.hbm, 65, rfl⟩
abbrev main_call1_v0 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_11 : Ref sig .tc := ⟨.hbm, 76, rfl⟩
abbrev main_v54 : Ref sig .tc := ⟨.hbm, 77, rfl⟩
abbrev main_v55 : Ref sig .tc := ⟨.hbm, 78, rfl⟩
abbrev main_c_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_13 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128x128 : S_.BroadcastsInDim S128x128 (![] : Fin 0 → Fin S128x128.rank)
  bcast_S_S1 : S_.BroadcastsInDim S1 (![] : Fin 0 → Fin S1.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S50000x128_S50000x1_0_0 : S50000x128.Slices ![0, 0] S50000x1
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S2000x512_S512x128_S2000x128_1_0_0_1_n_n_wf : DotDims.WF S2000x512 S512x128 S2000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  scatter_S128x128_S1_S128x1_01_n_1_0_wf : ScatterDims.WF S128x128 S1 S128x1 [0, 1] [] [1] 0
  dot_S2000x128_S128x128_S2000x128_1_0_0_1_n_n_wf : DotDims.WF S2000x128 S128x128 S2000x128 [1] [0] [0] [1] [] []
  gather_S50000x1_S1650000x1_S1650000x1_1_0_n_n_0_1_11_wf : GatherDims.WF S50000x1 S1650000x1 S1650000x1 [1] [0] [] [0] [] 1 ![1, 1]
  scatter_S50000x1_S1650000x1_S1650000x1_1_0_0_1_wf : ScatterDims.WF S50000x1 S1650000x1 S1650000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def scatter_S128x128_S1_S128x1_01_n_1_0 : ScatterDims S128x128 S1 S128x1 where
  updateWindowDims := [0, 1]
  insertedWindowDims := []
  scatterDimsToOperandDims := [1]
  indexVectorDim := 0
  wf := scatter_S128x128_S1_S128x1_01_n_1_0_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x1_S1650000x1_S1650000x1_1_0_n_n_0_1_11 : GatherDims S50000x1 S1650000x1 S1650000x1 where
  offsetDims := [1]
  collapsedSliceDims := [0]
  operandBatchingDims := []
  startIndicesBatchingDims := []
  startIndexMap := [0]
  indexVectorDim := 1
  sliceSizes := ![1, 1]
  wf := gather_S50000x1_S1650000x1_S1650000x1_1_0_n_n_0_1_11_wf
def scatter_S50000x1_S1650000x1_S1650000x1_1_0_0_1 : ScatterDims S50000x1 S1650000x1 S1650000x1 where
  updateWindowDims := [1]
  insertedWindowDims := [0]
  scatterDimsToOperandDims := [0]
  indexVectorDim := 1
  wf := scatter_S50000x1_S1650000x1_S1650000x1_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x1600000 : Shape := ⟨2, ![2, 1600000]⟩
abbrev S512x128 : Shape := ⟨2, ![512, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S1650000x128 : Shape := ⟨2, ![1650000, 128]⟩
abbrev S1x128 : Shape := ⟨2, ![1, 128]⟩
abbrev S50000x1 : Shape := ⟨2, ![50000, 1]⟩
abbrev S1x1 : Shape := ⟨2, ![1, 1]⟩

abbrev nBuf : Space → Nat
  | .hbm => 127
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S50000, .i32⟩
  | .hbm, ⟨11, _⟩ => ⟨S1650000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S1650000, .i32⟩
  | .hbm, ⟨28, _⟩ => ⟨S1650000, .i1⟩
  | .hbm, ⟨29, _⟩ => ⟨S_, .i32⟩
  | .hbm, ⟨30, _⟩ => ⟨S1650000, .i32⟩
  | .hbm, ⟨31, _⟩ => ⟨S1650000, .i32⟩
  | .hbm, ⟨32, _⟩ => ⟨S1650000, .i32⟩
  | .hbm, ⟨33, _⟩ => ⟨S1650000x1, .i32⟩
  | .hbm, ⟨34, _⟩ => ⟨S1650000, .f32⟩
  | .hbm, ⟨35, _⟩ => ⟨S_, .i32⟩
  | .hbm, ⟨36, _⟩ => ⟨S1650000, .i32⟩
  | .hbm, ⟨37, _⟩ => ⟨S1650000, .i1⟩
  | .hbm, ⟨38, _⟩ => ⟨S_, .i32⟩
  | .hbm, ⟨39, _⟩ => ⟨S1650000, .i32⟩
  | .hbm, ⟨40, _⟩ => ⟨S1650000, .i32⟩
  | .hbm, ⟨41, _⟩ => ⟨S1650000, .i32⟩
  | .hbm, ⟨42, _⟩ => ⟨S1650000x1, .i32⟩
  | .hbm, ⟨43, _⟩ => ⟨S1650000, .f32⟩
  | .hbm, ⟨44, _⟩ => ⟨S1650000, .f32⟩
  | .hbm, ⟨45, _⟩ => ⟨S50000x128, .f32⟩
  | .hbm, ⟨46, _⟩ => ⟨S1650000x1, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x128, .f32⟩
  | .hbm, ⟨56, _⟩ => ⟨S1650000x128, .f32⟩
  | .hbm, ⟨57, _⟩ => ⟨S1650000x128, .f32⟩
  | .hbm, ⟨58, _⟩ => ⟨S_, .f32⟩
  | .hbm, ⟨59, _⟩ => ⟨S50000x128, .f32⟩
  | .hbm, ⟨60, _⟩ => ⟨S1650000x1, .i32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S1x1600000, .i32⟩
  | .hbm, ⟨69, _⟩ => ⟨S1600000, .i32⟩
  | .hbm, ⟨70, _⟩ => ⟨S1x1600000, .i32⟩
  | .hbm, ⟨71, _⟩ => ⟨S1600000, .i32⟩
  | .hbm, ⟨72, _⟩ => ⟨S50000, .i32⟩
  | .hbm, ⟨73, _⟩ => ⟨S1650000, .i32⟩
  | .hbm, ⟨74, _⟩ => ⟨S1650000, .i32⟩
  | .hbm, ⟨75, _⟩ => ⟨S_, .f32⟩
  | .hbm, ⟨76, _⟩ => ⟨S1650000, .f32⟩
  | .hbm, ⟨77, _⟩ => ⟨S_, .f32⟩
  | .hbm, ⟨78, _⟩ => ⟨S50000, .f32⟩
  | .hbm, ⟨79, _⟩ => ⟨S1650000x1, .i32⟩
  | .hbm, ⟨80, _⟩ => ⟨S50000, .f32⟩
  | .hbm, ⟨81, _⟩ => ⟨S_, .f32⟩
  | .hbm, ⟨82, _⟩ => ⟨S50000, .f32⟩
  | .hbm, ⟨83, _⟩ => ⟨S50000, .i1⟩
  | .hbm, ⟨84, _⟩ => ⟨S50000, .f32⟩
  | .hbm, ⟨85, _⟩ => ⟨S_, .f32⟩
  | .hbm, ⟨86, _⟩ => ⟨S50000, .f32⟩
  | .hbm, ⟨87, _⟩ => ⟨S50000, .f32⟩
  | .hbm, ⟨88, _⟩ => ⟨S_, .i32⟩
  | .hbm, ⟨89, _⟩ => ⟨S1650000, .i32⟩
  | .hbm, ⟨90, _⟩ => ⟨S1650000, .i1⟩
  | .hbm, ⟨91, _⟩ => ⟨S_, .i32⟩
  | .hbm, ⟨92, _⟩ => ⟨S1650000, .i32⟩
  | .hbm, ⟨93, _⟩ => ⟨S1650000, .i32⟩
  | .hbm, ⟨94, _⟩ => ⟨S1650000, .i32⟩
  | .hbm, ⟨95, _⟩ => ⟨S1650000x1, .i32⟩
  | .hbm, ⟨96, _⟩ => ⟨S1650000, .f32⟩
  | .hbm, ⟨97, _⟩ => ⟨S_, .i32⟩
  | .hbm, ⟨98, _⟩ => ⟨S1650000, .i32⟩
  | .hbm, ⟨99, _⟩ => ⟨S1650000, .i1⟩
  | .hbm, ⟨100, _⟩ => ⟨S_, .i32⟩
  | .hbm, ⟨101, _⟩ => ⟨S1650000, .i32⟩
  | .hbm, ⟨102, _⟩ => ⟨S1650000, .i32⟩
  | .hbm, ⟨103, _⟩ => ⟨S1650000, .i32⟩
  | .hbm, ⟨104, _⟩ => ⟨S1650000x1, .i32⟩
  | .hbm, ⟨105, _⟩ => ⟨S1650000, .f32⟩
  | .hbm, ⟨106, _⟩ => ⟨S1650000, .f32⟩
  | .hbm, ⟨107, _⟩ => ⟨S50000x1, .f32⟩
  | .hbm, ⟨108, _⟩ => ⟨S1650000x1, .f32⟩
  | .hbm, ⟨109, _⟩ => ⟨S_, .i32⟩
  | .hbm, ⟨110, _⟩ => ⟨S1650000, .i32⟩
  | .hbm, ⟨111, _⟩ => ⟨S1650000, .i1⟩
  | .hbm, ⟨112, _⟩ => ⟨S_, .i32⟩
  | .hbm, ⟨113, _⟩ => ⟨S1650000, .i32⟩
  | .hbm, ⟨114, _⟩ => ⟨S1650000, .i32⟩
  | .hbm, ⟨115, _⟩ => ⟨S1650000, .i32⟩
  | .hbm, ⟨116, _⟩ => ⟨S1650000x1, .i32⟩
  | .hbm, ⟨117, _⟩ => ⟨S1650000x1, .f32⟩
  | .hbm, ⟨118, _⟩ => ⟨S1650000x1, .f32⟩
  | .hbm, ⟨119, _⟩ => ⟨S_, .f32⟩
  | .hbm, ⟨120, _⟩ => ⟨S50000x1, .f32⟩
  | .hbm, ⟨121, _⟩ => ⟨S1650000x1, .i32⟩
  | .hbm, ⟨122, _⟩ => ⟨S50000x1, .f32⟩
  | .hbm, ⟨123, _⟩ => ⟨S1x1, .f32⟩
  | .hbm, ⟨124, _⟩ => ⟨S50000x1, .f32⟩
  | .hbm, ⟨125, _⟩ => ⟨S50000x1, .f32⟩
  | .hbm, ⟨126, _⟩ => ⟨S50000, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call1_cst : Ref sig .tc := ⟨.hbm, 65, rfl⟩
abbrev main_call1_v0 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_9 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_call2_v0 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_c_14 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_15 : Ref sig .tc := ⟨.hbm, 97, rfl⟩
abbrev main_v70 : Ref sig .tc := ⟨.hbm, 98, rfl⟩
abbrev main_v71 : Ref sig .tc := ⟨.hbm, 99, rfl⟩
abbrev main_c_16 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_c_17 : Ref sig .tc := ⟨.hbm, 109, rfl⟩
abbrev main_v80 : Ref sig .tc := ⟨.hbm, 110, rfl⟩
abbrev main_v81 : Ref sig .tc := ⟨.hbm, 111, rfl⟩
abbrev main_c_18 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_19 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x512_S512x128_S50000x128_1_0_0_1_n_n_wf : DotDims.WF S50000x512 S512x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x1_S50000x1_1_0_0_1_n_n_wf : DotDims.WF S50000x128 S128x1 S50000x1 [1] [0] [0] [1] [] []
  gather_S50000x1_S1650000x1_S1650000x1_1_0_n_n_0_1_11_wf : GatherDims.WF S50000x1 S1650000x1 S1650000x1 [1] [0] [] [0] [] 1 ![1, 1]
  scatter_S50000x1_S1650000x1_S1650000x1_1_0_0_1_wf : ScatterDims.WF S50000x1 S1650000x1 S1650000x1 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def gather_S50000x1_S1650000x1_S1650000x1_1_0_n_n_0_1_11 : GatherDims S50000x1 S1650000x1 S1650000x1 where
  offsetDims := [1]
  collapsedSliceDims := [0]
  operandBatchingDims := []
  startIndicesBatchingDims := []
  startIndexMap := [0]
  indexVectorDim := 1
  sliceSizes := ![1, 1]
  wf := gather_S50000x1_S1650000x1_S1650000x1_1_0_n_n_0_1_11_wf
def scatter_S50000x1_S1650000x1_S1650000x1_1_0_0_1 : ScatterDims S50000x1 S1650000x1 S1650000x1 where
  updateWindowDims := [1]
  insertedWindowDims := [0]
  scatterDimsToOperandDims := [0]
  indexVectorDim := 1
  wf := scatter_S50000x1_S1650000x1_S1650000x1_1_0_0_1_wf

class Facts : Prop extends Facts₀ where

variable [Facts]
-- ==== Proof.Layers.lean ====
/-
  The graph-convolution layers shared by the two programs, each as ONE function of the argument arrays.

  The edge list `e` (two rows of 1 600 000 endpoints) is extended by the 50 000 self-loops; `deg` counts, per node,
  the edges that end there; `dinv` is deg^(-1/2) where the degree is positive and 0 elsewhere; an edge's weight
  `norm` is dinv(source) · dinv(destination), negative endpoints wrapped by +50 000 and the reads clamped.
  A layer takes node features `h`, gathers the source row of every edge, scales it by the edge's weight,
  sums the rows per destination node and adds the bias; the first layer then takes the positive part.
  Nothing here is opened by the proof: both programs apply these same functions, and the certificate only shows
  that the features they are applied to agree.
-/
import proofs.«123007_j27419071217926_1_alg».proof.KernelIdeal

noncomputable section

namespace Cert.KernelIdeal.Layers

open Idealize.ShloMosaic Cert.KernelIdeal

variable {F : FTy → Type} [FloatOps F] [Facts]
open Facts₀ Facts

/-- The sources of the edges, the self-loops appended. -/
def src (e : (⟨S2x1600000, .i32⟩ : BufTy).Contents (Elt F)) : (⟨S1650000, .i32⟩ : BufTy).Contents (Elt F) :=
  concatenate S1650000 0 [⟨S1600000, shapeCast S1600000 (extractStridedSlice S1x1600000 ![0, 0] e slices_S2x1600000_S1x1600000_0_0) shapeCasts_S1x1600000_S1600000⟩, ⟨S50000, iotaInDim S50000 32 0⟩] concatenates_S1600000_S50000_S1650000_d0

/-- The destinations of the edges, the self-loops appended. -/
def dst (e : (⟨S2x1600000, .i32⟩ : BufTy).Contents (Elt F)) : (⟨S1650000, .i32⟩ : BufTy).Contents (Elt F) :=
  concatenate S1650000 0 [⟨S1600000, shapeCast S1600000 (extractStridedSlice S1x1600000 ![1, 0] e slices_S2x1600000_S1x1600000_1_0) shapeCasts_S1x1600000_S1600000⟩, ⟨S50000, iotaInDim S50000 32 0⟩] concatenates_S1600000_S50000_S1650000_d0

/-- A node number read the numpy way: a negative one counts from the end. -/
def wrap (v : (⟨S1650000, .i32⟩ : BufTy).Contents (Elt F)) : (⟨S1650000, .i32⟩ : BufTy).Contents (Elt F) :=
  select (cmpi .slt v (broadcastInDim S1650000 ![] bcast_S_S1650000 (constantI S_ 32 0#32))) (addi v (broadcastInDim S1650000 ![] bcast_S_S1650000 (constantI S_ 32 50000#32))) v

/-- The number of edges (self-loops included) ending at each node. -/
def deg (e : (⟨S2x1600000, .i32⟩ : BufTy).Contents (Elt F)) : (⟨S50000, .f32⟩ : BufTy).Contents (Elt F) :=
  Host.scatterAdd scatter_S50000_S1650000x1_S1650000_n_0_0_1 (broadcastInDim S50000 ![] bcast_S_S50000 (constant S_ .f32 0x00000000#32)) (broadcastInDim S1650000x1 ![0] bcast_S1650000_S1650000x1_0 (dst e)) (broadcastInDim S1650000 ![] bcast_S_S1650000 (constant S_ .f32 0x3F800000#32))

/-- deg^(-1/2) at the nodes of positive degree, 0 at the others. -/
def dinv (e : (⟨S2x1600000, .i32⟩ : BufTy).Contents (Elt F)) : (⟨S50000, .f32⟩ : BufTy).Contents (Elt F) :=
  select (cmpf .ogt (deg e) (broadcastInDim S50000 ![] bcast_S_S50000 (constant S_ .f32 0x00000000#32))) (Host.rsqrt (deg e)) (broadcastInDim S50000 ![] bcast_S_S50000 (constant S_ .f32 0x00000000#32))

/-- The weight of each edge: dinv at its source times dinv at its destination. -/
def norm (e : (⟨S2x1600000, .i32⟩ : BufTy).Contents (Elt F)) : (⟨S1650000, .f32⟩ : BufTy).Contents (Elt F) :=
  mulf (Host.gather gather_S50000_S1650000x1_S1650000_n_0_n_n_0_1_1 (dinv e) (broadcastInDim S1650000x1 ![0] bcast_S1650000_S1650000x1_0 (wrap (src e))))
    (Host.gather gather_S50000_S1650000x1_S1650000_n_0_n_n_0_1_1 (dinv e) (broadcastInDim S1650000x1 ![0] bcast_S1650000_S1650000x1_0 (wrap (dst e))))

/-- The hidden layer: for each node the weighted sum of its in-neighbours' 128 features, plus the bias, positive part. -/
def hidden (e : (⟨S2x1600000, .i32⟩ : BufTy).Contents (Elt F)) (b : (⟨S128, .f32⟩ : BufTy).Contents (Elt F))
    (h : (⟨S50000x128, .f32⟩ : BufTy).Contents (Elt F)) : (⟨S50000x128, .f32⟩ : BufTy).Contents (Elt F) :=
  maximumf
    (addf
      (Host.scatterAdd scatter_S50000x128_S1650000x1_S1650000x128_1_0_0_1 (broadcastInDim S50000x128 ![] bcast_S_S50000x128 (constant S_ .f32 0x00000000#32))
        (broadcastInDim S1650000x1 ![0] bcast_S1650000_S1650000x1_0 (dst e))
        (mulf (broadcastInDim S1650000x128 ![0, 1] bcast_S1650000x1_S1650000x128_0_1 (broadcastInDim S1650000x1 ![0] bcast_S1650000_S1650000x1_0 (norm e)))
          (Host.gather gather_S50000x128_S1650000x1_S1650000x128_1_0_n_n_0_1_1128 h (broadcastInDim S1650000x1 ![0] bcast_S1650000_S1650000x1_0 (wrap (src e))))))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The output layer: for each node the weighted sum of its in-neighbours' one feature, plus the bias. -/
def output (e : (⟨S2x1600000, .i32⟩ : BufTy).Contents (Elt F)) (b : (⟨S1, .f32⟩ : BufTy).Contents (Elt F))
    (h : (⟨S50000x1, .f32⟩ : BufTy).Contents (Elt F)) : (⟨S50000, .f32⟩ : BufTy).Contents (Elt F) :=
  shapeCast S50000
    (addf
      (Host.scatterAdd scatter_S50000x1_S1650000x1_S1650000x1_1_0_0_1 (broadcastInDim S50000x1 ![] bcast_S_S50000x1 (constant S_ .f32 0x00000000#32))
        (broadcastInDim S1650000x1 ![0] bcast_S1650000_S1650000x1_0 (dst e))
        (mulf (broadcastInDim S1650000x1 ![0] bcast_S1650000_S1650000x1_0 (norm e))
          (Host.gather gather_S50000x1_S1650000x1_S1650000x1_1_0_n_n_0_1_11 h (broadcastInDim S1650000x1 ![0] bcast_S1650000_S1650000x1_0 (wrap (src e))))))
      (broadcastInDim S50000x1 ![0, 1] bcast_S1x1_S50000x1_0_1 (broadcastInDim S1x1 ![1] bcast_S1_S1x1_1 b)))
    shapeCasts_S50000x1_S50000

/-- The second layer's 128×1 weight column written into column 0 of a 128×128 array of zeros. -/
def padW (w : (⟨S128x1, .f32⟩ : BufTy).Contents (Elt F)) : (⟨S128x128, .f32⟩ : BufTy).Contents (Elt F) :=
  Host.scatter scatter_S128x128_S1_S128x1_01_n_1_0 (fun _ b => b) (broadcastInDim S128x128 ![] bcast_S_S128x128 (constant S_ .f32 0x00000000#32))
    (broadcastInDim S1 ![] bcast_S_S1 (constantI S_ 32 0#32)) w

/-- Column 0 of a 50 000 × 128 array, kept as a column. -/
def col0 (y : (⟨S50000x128, .f32⟩ : BufTy).Contents (Elt F)) : (⟨S50000x1, .f32⟩ : BufTy).Contents (Elt F) :=
  extractStridedSlice S50000x1 ![0, 0] y slices_S50000x128_S50000x1_0_0

end Cert.KernelIdeal.Layers

end
-- ==== Proof.Chain.lean ====
/-
  The kernel program's host side, read back: what each buffer the two regions and the result depend on holds at the
  boundaries of @main.

  Before the first region the host computes, from the edge list alone, the sources, the destinations and the edge
  weights; the first region leaves its product in one new array and touches nothing else; the host then forms the
  hidden layer from that product, the weights and the first bias, and pads the second weight column; the second
  region leaves its product in one new array; the host finally takes column 0 of it and forms the output layer with
  the same weights and the second bias. Each step below names a buffer's contents as the shared layer functions of
  the argument arrays and of the regions' output arrays, which stay unopened here.
-/
import proofs.«123007_j27419071217926_1_alg».proof.Proof.Gen.KernelIdeal.Frame
import proofs.«123007_j27419071217926_1_alg».proof.Proof.Layers
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## At the first region's entry -/

theorem w3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl
theorem w3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl
theorem w3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl
theorem w3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl
theorem w3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl

/-- The sources, self-loops appended. -/
theorem w3_src (c : Dev nD) : W3 m ρ c (Proc.devRef .tc main_v5) = Layers.src (m ((c : Thread nD τ).loc main_arg1)) := by
  show StableHlo.after hostOps0_2 (StableHlo.after hostOps0_1 (StableHlo.after hostOps0 (W0 m ρ c))) (Proc.devRef .tc main_v5) = _
  after_results <;> rfl
/-- The destinations, self-loops appended. -/
theorem w3_dst (c : Dev nD) : W3 m ρ c (Proc.devRef .tc main_v6) = Layers.dst (m ((c : Thread nD τ).loc main_arg1)) := by
  show StableHlo.after hostOps0_2 (StableHlo.after hostOps0_1 (StableHlo.after hostOps0 (W0 m ρ c))) (Proc.devRef .tc main_v6) = _
  after_results <;> rfl
/-- The edge weights. -/
theorem w3_norm (c : Dev nD) : W3 m ρ c (Proc.devRef .tc main_v29) = Layers.norm (m ((c : Thread nD τ).loc main_arg1)) := by
  show StableHlo.after hostOps0_2 (StableHlo.after hostOps0_1 (StableHlo.after hostOps0 (W0 m ρ c))) (Proc.devRef .tc main_v29) = _
  after_results_simp
  rfl

/-! ## After the first region: its output array is new, every other buffer is as it was -/

theorem w4_src (c : Dev nD) : W4 m ρ c (Proc.devRef .tc main_v5) = Layers.src (m ((c : Thread nD τ).loc main_arg1)) :=
  (W4_of_ne m ρ c main_v5 (by decide)).trans (w3_src m ρ c)
theorem w4_dst (c : Dev nD) : W4 m ρ c (Proc.devRef .tc main_v6) = Layers.dst (m ((c : Thread nD τ).loc main_arg1)) :=
  (W4_of_ne m ρ c main_v6 (by decide)).trans (w3_dst m ρ c)
theorem w4_norm (c : Dev nD) : W4 m ρ c (Proc.devRef .tc main_v29) = Layers.norm (m ((c : Thread nD τ).loc main_arg1)) :=
  (W4_of_ne m ρ c main_v29 (by decide)).trans (w3_norm m ρ c)
theorem w4_arg3 (c : Dev nD) : W4 m ρ c (Proc.devRef .tc main_arg3) = m ((c : Thread nD τ).loc main_arg3) :=
  (W4_of_ne m ρ c main_arg3 (by decide)).trans (w3_arg3 m ρ c)
theorem w4_arg4 (c : Dev nD) : W4 m ρ c (Proc.devRef .tc main_arg4) = m ((c : Thread nD τ).loc main_arg4) :=
  (W4_of_ne m ρ c main_arg4 (by decide)).trans (w3_arg4 m ρ c)
theorem w4_arg5 (c : Dev nD) : W4 m ρ c (Proc.devRef .tc main_arg5) = m ((c : Thread nD τ).loc main_arg5) :=
  (W4_of_ne m ρ c main_arg5 (by decide)).trans (w3_arg5 m ρ c)

/-! ## At the second region's entry -/

/-- The hidden layer of the first region's output array. -/
theorem w7_hidden (c : Dev nD) : W7 m ρ c (Proc.devRef .tc main_v47)
    = Layers.hidden (m ((c : Thread nD τ).loc main_arg1)) (m ((c : Thread nD τ).loc main_arg3)) (W4 m ρ c (Proc.devRef .tc main_v30)) := by
  show StableHlo.after hostOps1_2 (StableHlo.after hostOps1_1 (StableHlo.after hostOps1 (W4 m ρ c))) (Proc.devRef .tc main_v47) = _
  after_results_simp
  rw [w4_norm, w4_src, w4_dst, w4_arg3]
  rfl
/-- The padded second weight. -/
theorem w7_pad (c : Dev nD) : W7 m ρ c (Proc.devRef .tc main_v50) = Layers.padW (m ((c : Thread nD τ).loc main_arg4)) := by
  show StableHlo.after hostOps1_2 (StableHlo.after hostOps1_1 (StableHlo.after hostOps1 (W4 m ρ c))) (Proc.devRef .tc main_v50) = _
  after_results_simp
  rw [w4_arg4]
  rfl
theorem w7_src (c : Dev nD) : W7 m ρ c (Proc.devRef .tc main_v5) = Layers.src (m ((c : Thread nD τ).loc main_arg1)) := by
  refine Eq.trans ?_ (w4_src m ρ c)
  show StableHlo.after hostOps1_2 (StableHlo.after hostOps1_1 (StableHlo.after hostOps1 (W4 m ρ c))) (Proc.devRef .tc main_v5) = _
  after_results_simp <;> rfl
theorem w7_dst (c : Dev nD) : W7 m ρ c (Proc.devRef .tc main_v6) = Layers.dst (m ((c : Thread nD τ).loc main_arg1)) := by
  refine Eq.trans ?_ (w4_dst m ρ c)
  show StableHlo.after hostOps1_2 (StableHlo.after hostOps1_1 (StableHlo.after hostOps1 (W4 m ρ c))) (Proc.devRef .tc main_v6) = _
  after_results_simp <;> rfl
theorem w7_norm (c : Dev nD) : W7 m ρ c (Proc.devRef .tc main_v29) = Layers.norm (m ((c : Thread nD τ).loc main_arg1)) := by
  refine Eq.trans ?_ (w4_norm m ρ c)
  show StableHlo.after hostOps1_2 (StableHlo.after hostOps1_1 (StableHlo.after hostOps1 (W4 m ρ c))) (Proc.devRef .tc main_v29) = _
  after_results_simp <;> rfl
theorem w7_arg5 (c : Dev nD) : W7 m ρ c (Proc.devRef .tc main_arg5) = m ((c : Thread nD τ).loc main_arg5) := by
  refine Eq.trans ?_ (w4_arg5 m ρ c)
  show StableHlo.after hostOps1_2 (StableHlo.after hostOps1_1 (StableHlo.after hostOps1 (W4 m ρ c))) (Proc.devRef .tc main_arg5) = _
  after_results_simp <;> rfl

/-! ## After the second region, and the result -/

theorem w8_src (c : Dev nD) : W8 m ρ c (Proc.devRef .tc main_v5) = Layers.src (m ((c : Thread nD τ).loc main_arg1)) :=
  (W8_of_ne m ρ c main_v5 (by decide)).trans (w7_src m ρ c)
theorem w8_dst (c : Dev nD) : W8 m ρ c (Proc.devRef .tc main_v6) = Layers.dst (m ((c : Thread nD τ).loc main_arg1)) :=
  (W8_of_ne m ρ c main_v6 (by decide)).trans (w7_dst m ρ c)
theorem w8_norm (c : Dev nD) : W8 m ρ c (Proc.devRef .tc main_v29) = Layers.norm (m ((c : Thread nD τ).loc main_arg1)) :=
  (W8_of_ne m ρ c main_v29 (by decide)).trans (w7_norm m ρ c)
theorem w8_arg5 (c : Dev nD) : W8 m ρ c (Proc.devRef .tc main_arg5) = m ((c : Thread nD τ).loc main_arg5) :=
  (W8_of_ne m ρ c main_arg5 (by decide)).trans (w7_arg5 m ρ c)

/-- @main's result: the output layer of column 0 of the second region's output array. -/
theorem w9_result (c : Dev nD) : W9 m ρ c (Proc.devRef .tc main_v68)
    = Layers.output (m ((c : Thread nD τ).loc main_arg1)) (m ((c : Thread nD τ).loc main_arg5))
        (Layers.col0 (W8 m ρ c (Proc.devRef .tc main_v51))) := by
  show StableHlo.after hostOps2 (W8 m ρ c) (Proc.devRef .tc main_v68) = _
  after_results_simp
  rw [w8_norm, w8_src, w8_dst, w8_arg5]
  rfl

end Cert.KernelIdeal.Chain

end
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.Region0.lean ====
/-
  The first product, computed by the kernel in 25 blocks of 2000 rows.

  At grid point t the body loads rows 2000·t … 2000·t + 1999 of the features (all 512 columns) and the whole
  512 × 128 weight, multiplies them into a zero accumulator and stores the 2000 × 128 result, which is written back
  as rows 2000·t … of the output. Over the extended reals a change of float format is the identity and the product
  into zero is the plain sum over the 512 contracted columns, so block t of the output is block t of the whole
  product; the 25 blocks tile the 50 000 rows, hence the output array ends as the whole product of the two arrays
  the region found.
-/
import proofs.«123007_j27419071217926_1_alg».proof.Proof.Gen.KernelIdeal.Frame
import proofs.«123007_j27419071217926_1_alg».proof.Proof.LibPlainProduct
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen Cert.PlainProduct
open Idealize.ShloMosaic.Pipeline (Dat Cfg Window)

variable (V : (c : Dev nD) → (b : Ref sig .tc) → Buf (Elt Ideal) ((c : Thread nD τ).loc b))

/-- The two arrays the region reads and their whole product, at their literal types. -/
abbrev xarr (c : Dev nD) : FVec Ideal S50000x512 .f32 := V c main_arg0
abbrev warr (c : Dev nD) : FVec Ideal S512x128 .f32 := V c main_arg2
abbrev whole (c : Dev nD) : FVec Ideal S50000x128 .f32 :=
  prod (M := 50000) (K := 512) (N := 128) (φ₁ := .f32) (φ₂ := .f32) (xarr V c) (warr V c)

theorem hz : (![0, 0] : Fin 2 → Nat) = fun _ => 0 := funext fun a => by fin_cases a <;> rfl

/-- The body's stored value at row p, column q of its block: the sum over the 512 columns of the loaded feature
    rows times the loaded weight. -/
theorem pay_apply (x0 : Vec Ideal S2000x512 .f32) (x1 : Vec Ideal S512x128 .f32) (p : Fin 2000) (q : Fin 128) :
    k0_pay1 (F := Ideal) x0 x1 (ix2 p q) = ∑ k : Fin 512, x0 (ix2 p k) * x1 (ix2 k q) := by
  unfold k0_pay1
  exact matmul_zero_apply (M := 2000) (K := 512) (N := 128) none
    (truncf (F := Ideal) .bf16 x0 bitsLt_bf16_f32) (truncf (F := Ideal) .bf16 x1 bitsLt_bf16_f32) p q

/-- The windows' block indices over the grid: the feature rows and the output rows move together with the point,
    the weight stays. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 24 :=
  (by decide +kernel : ∀ t : Fin grid0.N, _)

/-- Every block of 2000 output rows is some point's. -/
theorem idx_onto : ∀ q0 : Fin 25, ∃ t : Fin cfg0.N, win0_2.index t = ![q0.val, 0] :=
  (by decide +kernel : ∀ q0 : Fin 25, ∃ t : Fin grid0.N, win0_2.index t = ![q0.val, 0])

/-- What point t writes back is block t of the whole product of the arrays the region found. -/
theorem flushed_eq (c : Dev nD) (t : Fin cfg0.N) :
    (dat0 V c).flushed 2 t
      = ((cfg0.win 2).blk t).view.read (Elt Ideal) (whole V c) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x128) hz]
  obtain ⟨e0, e1, e2, e3, e4, e5⟩ := idx_facts t
  funext j
  obtain ⟨p, q, rfl⟩ : ∃ (p : Fin 2000) (q : Fin 128), j = ix2 p q := ⟨j 0, j 1, eq_ix2 j⟩
  refine (pay_apply (iblk0 V c 0 t) (iblk0 V c 1 t) p q).trans ?_
  show _ = ∑ k : Fin 512, xarr V c (ix2 ((((cfg0.win 2).blk t).view.emb (ix2 p q)) 0) k) * warr V c (ix2 k ((((cfg0.win 2).blk t).view.emb (ix2 p q)) 1))
  refine Finset.sum_congr rfl fun k _ => ?_
  have h0 : ((cfg0.win 0).blk t).view.emb (ix2 p k)
      = ix2 ((((cfg0.win 2).blk t).view.emb (ix2 p q)) 0) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 512 + 1 * k.val = k.val; omega
  have h1 : ((cfg0.win 1).blk t).view.emb (ix2 k q)
      = ix2 k ((((cfg0.win 2).blk t).view.emb (ix2 p q)) 1) := by
    funext a; apply Fin.ext
    match a with
    | ⟨0, _⟩ => show win0_1.index t (0 : Fin 2) * 512 + 1 * k.val = k.val; omega
    | ⟨1, _⟩ => show win0_1.index t (1 : Fin 2) * 128 + 1 * q.val = win0_2.index t (1 : Fin 2) * 128 + 1 * q.val; omega
  show xarr V c (((cfg0.win 0).blk t).view.emb (ix2 p k)) * warr V c (((cfg0.win 1).blk t).view.emb (ix2 k q)) = _
  rw [h0, h1]
  rfl

/-- An output index is in point t's block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- The blocks tile the output: row r is in block r / 2000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array after the region: the whole product of the two arrays the region found. -/
theorem out_eq (c : Dev nD) :
    (dat0 V c).arrAt 2 cfg0.N = whole V c :=
  (dat0 V c).arrAt_eq_of_cover 2 _ (fun t _ => flushed_eq V c t) cover

end Cert.KernelIdeal.Region0

end
-- ==== Proof.Region1.lean ====
/-
  The second product, computed by the kernel in 25 blocks of 2000 rows.

  At grid point t the body loads rows 2000·t … 2000·t + 1999 of the hidden features (128 columns) and the whole
  128 × 128 padded weight, multiplies them into a zero accumulator and stores the 2000 × 128 result, which is written
  back as rows 2000·t … of the output. Over the extended reals the format change and the two same-shape casts are the
  identity and the product into zero is the plain sum over the 128 contracted columns, so block t of the output is
  block t of the whole product; the 25 blocks tile the 50 000 rows, hence the output array ends as the whole product
  of the two arrays the region found.
-/
import proofs.«123007_j27419071217926_1_alg».proof.Proof.Gen.KernelIdeal.Frame
import proofs.«123007_j27419071217926_1_alg».proof.Proof.LibPlainProduct
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen Cert.PlainProduct
open Idealize.ShloMosaic.Pipeline (Dat Cfg Window)

variable (V : (c : Dev nD) → (b : Ref sig .tc) → Buf (Elt Ideal) ((c : Thread nD τ).loc b))

/-- The two arrays the region reads and their whole product, at their literal types. -/
abbrev xarr (c : Dev nD) : FVec Ideal S50000x128 .f32 := V c main_v47
abbrev warr (c : Dev nD) : FVec Ideal S128x128 .f32 := V c main_v50
abbrev whole (c : Dev nD) : FVec Ideal S50000x128 .f32 :=
  prod (M := 50000) (K := 128) (N := 128) (φ₁ := .f32) (φ₂ := .f32) (xarr V c) (warr V c)

theorem hz : (![0, 0] : Fin 2 → Nat) = fun _ => 0 := funext fun a => by fin_cases a <;> rfl

/-- The body's stored value at row p, column q of its block: the sum over the 128 columns of the loaded hidden
    rows times the loaded padded weight. -/
theorem pay_apply (x0 : Vec Ideal S2000x128 .f32) (x1 : Vec Ideal S128x128 .f32) (p : Fin 2000) (q : Fin 128) :
    k1_pay1 (F := Ideal) x0 x1 (ix2 p q) = ∑ k : Fin 128, x0 (ix2 p k) * x1 (ix2 k q) := by
  unfold k1_pay1
  refine (matmul_zero_apply (M := 2000) (K := 128) (N := 128) none
    (truncf (F := Ideal) .bf16 (shapeCast S2000x128 x0 shapeCasts_S2000x128_S2000x128) bitsLt_bf16_f32)
    (truncf (F := Ideal) .bf16 (shapeCast S128x128 x1 shapeCasts_S128x128_S128x128) bitsLt_bf16_f32) p q).trans ?_
  refine Finset.sum_congr rfl fun k _ => ?_
  show shapeCast S2000x128 x0 shapeCasts_S2000x128_S2000x128 (ix2 p k) * shapeCast S128x128 x1 shapeCasts_S128x128_S128x128 (ix2 k q) = _
  rw [shapeCast_self, shapeCast_self]

/-- The windows' block indices over the grid: the feature rows and the output rows move together with the point,
    the weight stays. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 24 :=
  (by decide +kernel : ∀ t : Fin grid1.N, _)

/-- Every block of 2000 output rows is some point's. -/
theorem idx_onto : ∀ q0 : Fin 25, ∃ t : Fin cfg1.N, win1_2.index t = ![q0.val, 0] :=
  (by decide +kernel : ∀ q0 : Fin 25, ∃ t : Fin grid1.N, win1_2.index t = ![q0.val, 0])

/-- What point t writes back is block t of the whole product of the arrays the region found. -/
theorem flushed_eq (c : Dev nD) (t : Fin cfg1.N) :
    (dat1 V c).flushed 2 t
      = ((cfg1.win 2).blk t).view.read (Elt Ideal) (whole V c) := by
  show (cfg1.win 2).cut (grid1.coords t) ((dat1 V c).after 2 t) = _
  rw [after1_2]
  unfold out1_2
  rw [View.canon_unit_zero hz]
  simp only [View.ld_unit_zero (S := S2000x128) hz, View.ld_unit_zero (S := S128x128) hz]
  obtain ⟨e0, e1, e2, e3, e4, e5⟩ := idx_facts t
  funext j
  obtain ⟨p, q, rfl⟩ : ∃ (p : Fin 2000) (q : Fin 128), j = ix2 p q := ⟨j 0, j 1, eq_ix2 j⟩
  refine (pay_apply (iblk1 V c 0 t) (iblk1 V c 1 t) p q).trans ?_
  show _ = ∑ k : Fin 128, xarr V c (ix2 ((((cfg1.win 2).blk t).view.emb (ix2 p q)) 0) k) * warr V c (ix2 k ((((cfg1.win 2).blk t).view.emb (ix2 p q)) 1))
  refine Finset.sum_congr rfl fun k _ => ?_
  have h0 : ((cfg1.win 0).blk t).view.emb (ix2 p k)
      = ix2 ((((cfg1.win 2).blk t).view.emb (ix2 p q)) 0) k := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * k.val = k.val; omega
  have h1 : ((cfg1.win 1).blk t).view.emb (ix2 k q)
      = ix2 k ((((cfg1.win 2).blk t).view.emb (ix2 p q)) 1) := by
    funext a; apply Fin.ext
    match a with
    | ⟨0, _⟩ => show win1_1.index t (0 : Fin 2) * 128 + 1 * k.val = k.val; omega
    | ⟨1, _⟩ => show win1_1.index t (1 : Fin 2) * 128 + 1 * q.val = win1_2.index t (1 : Fin 2) * 128 + 1 * q.val; omega
  show xarr V c (((cfg1.win 0).blk t).view.emb (ix2 p k)) * warr V c (((cfg1.win 1).blk t).view.emb (ix2 k q)) = _
  rw [h0, h1]
  rfl

/-- An output index is in point t's block iff each coordinate is in the block's range on its axis. -/
theorem mem_blk (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v51).slice (win1_2.rect t)).set ↔ _
  rw [View.set_slice_whole, Rect.mem_set_unit]
  exact Iff.rfl

/-- The blocks tile the output: row r is in block r / 2000. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- The output array after the region: the whole product of the two arrays the region found. -/
theorem out_eq (c : Dev nD) :
    (dat1 V c).arrAt 2 cfg1.N = whole V c :=
  (dat1 V c).arrAt_eq_of_cover 2 _ (fun t _ => flushed_eq V c t) cover

end Cert.KernelIdeal.Region1

end
-- ==== Proof.Whole.lean ====
/-
  The common value of the two programs as one function of the argument arrays: features x, edge list e, first weight
  w1 and bias b1, second weight column w2 and bias b2. The first product x · w1 goes through the hidden layer; the
  hidden features are multiplied by the second weight padded to 128 columns and column 0 of that product goes through
  the output layer.
-/
import proofs.«123007_j27419071217926_1_alg».proof.Proof.Layers
import proofs.«123007_j27419071217926_1_alg».proof.Proof.LibPlainProduct

noncomputable section

namespace Cert.KernelIdeal.Whole

open Idealize.ShloMosaic Cert.KernelIdeal Cert.PlainProduct

variable [Facts]

/-- The first product. -/
abbrev first (x : FVec Ideal S50000x512 .f32) (w1 : FVec Ideal S512x128 .f32) : FVec Ideal S50000x128 .f32 :=
  prod (M := 50000) (K := 512) (N := 128) (φ₁ := .f32) (φ₂ := .f32) x w1

/-- The second product, against the padded weight. -/
abbrev second (h : FVec Ideal S50000x128 .f32) (w2 : FVec Ideal S128x1 .f32) : FVec Ideal S50000x128 .f32 :=
  prod (M := 50000) (K := 128) (N := 128) (φ₁ := .f32) (φ₂ := .f32) h (Layers.padW (F := Ideal) w2)

/-- The network's result. -/
def value (x : FVec Ideal S50000x512 .f32) (e : (⟨S2x1600000, .i32⟩ : BufTy).Contents (Elt Ideal))
    (w1 : FVec Ideal S512x128 .f32) (b1 : FVec Ideal S128 .f32) (w2 : FVec Ideal S128x1 .f32) (b2 : FVec Ideal S1 .f32) :
    FVec Ideal S50000 .f32 :=
  Layers.output (F := Ideal) e b2 (Layers.col0 (second (Layers.hidden (F := Ideal) e b1 (first x w1)) w2))

end Cert.KernelIdeal.Whole

end
-- ==== Proof.KernelValue.lean ====
/-
  The kernel program's run and its result: the host chain read back (its regions' output arrays unopened) with the
  two regions' output arrays put in — each the whole product of the two arrays its region found.
-/
import proofs.«123007_j27419071217926_1_alg».proof.Proof.KernelRun
import proofs.«123007_j27419071217926_1_alg».proof.Proof.Chain
import proofs.«123007_j27419071217926_1_alg».proof.Proof.Region0
import proofs.«123007_j27419071217926_1_alg».proof.Proof.Region1
import proofs.«123007_j27419071217926_1_alg».proof.Proof.Whole

set_option maxRecDepth 16384

noncomputable section

namespace Cert.KernelIdeal.KernelValue

open Idealize.ShloMosaic Idealize.ShloMosaic.TcCoe Idealize.SL.Sem
open Cert.KernelIdeal Cert.KernelIdeal.Gen Cert.PlainProduct

variable (m : (ℓ : Loc nD τ sig) → Buf (Elt Ideal) ℓ) (ρ : Dev nD → PrngReg)

/-- The first region's output array: the product of the features by the first weight. -/
theorem w4_out (c : Dev nD) : W4 m ρ c (Proc.devRef .tc main_v30)
    = Whole.first (m ((c : Thread nD τ).loc main_arg0)) (m ((c : Thread nD τ).loc main_arg2)) := by
  refine (W4_arr m ρ c 2).trans ((Region0.out_eq (V3 m ρ) c).trans ?_)
  show prod (M := 50000) (K := 512) (N := 128) (φ₁ := .f32) (φ₂ := .f32) (Region0.xarr (V3 m ρ) c) (Region0.warr (V3 m ρ) c) = _
  have e0 : Region0.xarr (V3 m ρ) c = m ((c : Thread nD τ).loc main_arg0) := Chain.w3_arg0 m ρ c
  have e2 : Region0.warr (V3 m ρ) c = m ((c : Thread nD τ).loc main_arg2) := Chain.w3_arg2 m ρ c
  rw [e0, e2]

/-- The second region's output array: the product of the hidden features by the padded second weight. -/
theorem w8_out (c : Dev nD) : W8 m ρ c (Proc.devRef .tc main_v51)
    = Whole.second (Layers.hidden (m ((c : Thread nD τ).loc main_arg1)) (m ((c : Thread nD τ).loc main_arg3))
        (Whole.first (m ((c : Thread nD τ).loc main_arg0)) (m ((c : Thread nD τ).loc main_arg2))))
      (m ((c : Thread nD τ).loc main_arg4)) := by
  refine (W8_arr m ρ c 2).trans ((Region1.out_eq (V7 m ρ) c).trans ?_)
  show prod (M := 50000) (K := 128) (N := 128) (φ₁ := .f32) (φ₂ := .f32) (Region1.xarr (V7 m ρ) c) (Region1.warr (V7 m ρ) c) = _
  have e0 : Region1.xarr (V7 m ρ) c = Layers.hidden (m ((c : Thread nD τ).loc main_arg1)) (m ((c : Thread nD τ).loc main_arg3))
      (Whole.first (m ((c : Thread nD τ).loc main_arg0)) (m ((c : Thread nD τ).loc main_arg2))) :=
    (Chain.w7_hidden m ρ c).trans (congrArg (Layers.hidden (m ((c : Thread nD τ).loc main_arg1)) (m ((c : Thread nD τ).loc main_arg3))) (w4_out m ρ c))
  have e1 : Region1.warr (V7 m ρ) c = Layers.padW (m ((c : Thread nD τ).loc main_arg4)) := Chain.w7_pad m ρ c
  rw [e0, e1]

/-- @main's result buffer at the last boundary: the network's result of the launch contents of the arguments. -/
theorem result_eq (c : Dev nD) : W9 m ρ c (Proc.devRef .tc main_v68)
    = Whole.value (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (Chain.w9_result m ρ c).trans
    (congrArg (fun y => Layers.output (m ((c : Thread nD τ).loc main_arg1)) (m ((c : Thread nD τ).loc main_arg5)) (Layers.col0 y))
      (w8_out m ρ c))

/-- The kernel program's run with its result named. -/
theorem run : θ_run defs (onTc (τ := τ) (main (F := Ideal))) ⟨m, fun _ => 0, ρ⟩ (fun r => ∀ c : Dev nD,
      r.2.mem ((c.tc : Thread nD τ).loc main_v68)
        = Whole.value (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (Named.run_named m ρ)

end Cert.KernelIdeal.KernelValue

end
-- ==== Proof.RefValue.lean ====
/-
  The reference's result as the shared layer functions of its two products: its @main computes the edge weights twice,
  once per layer, by the same operations of the same edge list, so its composed result is the output layer of the
  second product of the hidden layer of the first product, with one and the same weight function in both layers.
-/
import proofs.«123007_j27419071217926_1_alg».proof.Proof.Gen.KernelIdeal
import proofs.«123007_j27419071217926_1_alg».proof.Proof.RefRun
import proofs.«123007_j27419071217926_1_alg».proof.Proof.Layers

set_option maxRecDepth 16384

noncomputable section

namespace Cert.ReferenceIdeal.RefValue

open Idealize.ShloMosaic Idealize.ShloMosaic.TcCoe Idealize.SL.Sem
open Cert.ReferenceIdeal Cert.ReferenceIdeal.Gen

variable {F : FTy → Type} [FloatOps F]

theorem res_eq (m : (ℓ : Loc nD τ sig) → Buf (Elt F) ℓ) (c : Dev nD) :
    RunP.res_main_v94 m c
      = Cert.KernelIdeal.Layers.output (m ((c.tc : Thread nD τ).loc main_arg1)) (m ((c.tc : Thread nD τ).loc main_arg5))
          (Host.dotGeneral dot_S50000x128_S128x1_S50000x1_1_0_0_1_n_n none
            (Cert.KernelIdeal.Layers.hidden (m ((c.tc : Thread nD τ).loc main_arg1)) (m ((c.tc : Thread nD τ).loc main_arg3))
              (Host.dotGeneral dot_S50000x512_S512x128_S50000x128_1_0_0_1_n_n none
                (m ((c.tc : Thread nD τ).loc main_arg0)) (m ((c.tc : Thread nD τ).loc main_arg2))))
            (m ((c.tc : Thread nD τ).loc main_arg4))) := by
  unfold RunP.res_main_v94 Cert.KernelIdeal.Layers.output Cert.KernelIdeal.Layers.hidden Cert.KernelIdeal.Layers.norm
    Cert.KernelIdeal.Layers.dinv Cert.KernelIdeal.Layers.deg Cert.KernelIdeal.Layers.wrap Cert.KernelIdeal.Layers.src
    Cert.KernelIdeal.Layers.dst
  rfl

end Cert.ReferenceIdeal.RefValue

end
-- ==== Proof.PadColumn.lean ====
/-
  A 128×1 column written over column 0 of a 128×128 array of zeros, read back in column 0.

  The write is a scatter whose body returns the update, with one scatter index, the word 0: update index `(r, 0)` of the
  column lands at operand index `(r, 0)` (window start 0 on both axes, window coordinate the update's own coordinate),
  so distinct rows land at distinct places. The scatter is a left fold over the update indices in which each update
  overwrites the place it lands at; read at `(k, 0)` such a fold gives the value of the only update that lands there,
  the column's element `(k, 0)`. The fold is reasoned about by induction over an abstract list, never evaluated.
-/
import proofs.«123007_j27419071217926_1_alg».proof.KernelIdeal
import Idealize.ShloMosaic.Lib.ValueIdx
noncomputable section
namespace Cert.KernelIdeal.PadColumn
open Idealize.ShloMosaic Idealize.ShloMosaic.ValueIdx Cert.KernelIdeal

/-! ## An overwrite fold read at one place -/

section Fold
variable {ι κ α : Type} [DecidableEq κ]

/-- One step of the overwrite fold: element `n` writes `v n` at the place `g n` names, and writes nothing when
    `g n` names none. -/
def stepW (g : ι → Option κ) (v : ι → α) (r : κ → α) (n : ι) : κ → α :=
  match g n with
  | some i => fun i' => if i' = i then v n else r i'
  | none => r

/-- A step whose element names the place `i` leaves that element's value there. -/
theorem stepW_hit (g : ι → Option κ) (v : ι → α) (r : κ → α) (n : ι) (i : κ) (h : g n = some i) :
    stepW g v r n i = v n := by
  unfold stepW; rw [h]; simp

/-- A step whose element does not name the place `i` leaves that place as it was. -/
theorem stepW_miss (g : ι → Option κ) (v : ι → α) (r : κ → α) (n : ι) (i : κ) (h : g n ≠ some i) :
    stepW g v r n i = r i := by
  unfold stepW
  cases hg : g n with
  | none => rfl
  | some i0 =>
    have : i ≠ i0 := fun e => h (by rw [hg, e])
    simp [this]

/-- If no element of the list names the place `i`, the fold leaves that place as it was. -/
theorem fold_miss (g : ι → Option κ) (v : ι → α) (i : κ) :
    ∀ (l : List ι) (x : κ → α), (∀ n ∈ l, g n ≠ some i) → l.foldl (stepW g v) x i = x i
  | [], _, _ => rfl
  | n :: l, x, h => by
    rw [List.foldl_cons, fold_miss g v i l _ (fun m hm => h m (List.mem_cons_of_mem _ hm))]
    exact stepW_miss g v x n i (h n (List.mem_cons_self ..))

/-- If some element of the list names the place `i`, and every element that names it carries the value `c`, the
    fold leaves `c` at that place: the last element that names `i` decides, and all of them say `c`. -/
theorem fold_hit (g : ι → Option κ) (v : ι → α) (i : κ) (c : α) :
    ∀ (l : List ι) (x : κ → α), (∃ n ∈ l, g n = some i) → (∀ n ∈ l, g n = some i → v n = c) →
      l.foldl (stepW g v) x i = c
  | [], _, h, _ => by obtain ⟨n, hn, _⟩ := h; cases hn
  | n :: l, x, h, hc => by
    rw [List.foldl_cons]
    by_cases hl : ∃ m ∈ l, g m = some i
    · exact fold_hit g v i c l _ hl (fun m hm => hc m (List.mem_cons_of_mem _ hm))
    · have hl' : ∀ m ∈ l, g m ≠ some i := fun m hm e => hl ⟨m, hm, e⟩
      rw [fold_miss g v i l _ hl']
      obtain ⟨m, hm, e⟩ := h
      rcases List.mem_cons.1 hm with rfl | hm'
      · rw [stepW_hit g v x m i e]; exact hc m (List.mem_cons_self ..) e
      · exact absurd e (hl' m hm')

end Fold

/-- A scatter whose body returns the update is the overwrite fold over the update numbers in row-major order: update
    number `n` writes the update's element at the operand index it lands at, if it lands inside. -/
theorem scatter_eq_fold {α : Type} {s si u : Shape} {w : Nat} (d : ScatterDims s si u) (x : s.Idx → α) (idx : IVec si w)
    (upd : u.Idx → α) :
    Host.scatter d (fun _ b => b) x idx upd
      = (List.finRange u.numel).foldl
          (stepW (fun n => d.resultIdx? (u.rowMajor.symm n) idx) (fun n => upd (u.rowMajor.symm n))) x := by
  unfold Host.scatter
  congr 1
  funext r n
  unfold stepW
  beta_reduce
  cases d.resultIdx? (u.rowMajor.symm n) idx <;> rfl

/-! ## Where an update index of the column lands -/

variable {F : FTy → Type} [FloatOps F] [Facts]
open Facts₀ Facts

/-- The scatter indices of the program: the one index word, zero. -/
abbrev idx0 : IVec S1 32 := broadcastInDim S1 ![] bcast_S_S1 (constantI S_ 32 0#32)

/-- The window starts at 0 on both operand axes: axis 0 is not a scattered axis, and on axis 1 the start is the
    index word 0 read signed. -/
theorem start_zero (j : S128x1.Idx) (a : Fin 2) :
    scatter_S128x128_S1_S128x1_01_n_1_0.start j idx0 a = 0 := by
  unfold ScatterDims.start
  split
  · show (0#32 : BitVec 32).toInt = 0
    decide
  · rfl

/-- On operand axis 0 the window coordinate is the update index's coordinate 0 (no axis is inserted, so operand axis
    0 is the first kept axis and reads update axis 0). -/
theorem window_0 (j : S128x1.Idx) :
    scatter_S128x128_S1_S128x1_01_n_1_0.window j (0 : Fin 2) = (j 0).val := by
  have h : (0 : Fin 2) ∈ S128x128.kept [] := by decide
  unfold ScatterDims.window
  rw [dif_pos (show (0 : Fin 2) ∈ scatter_S128x128_S1_S128x1_01_n_1_0.sKept from h)]
  rfl

/-- On operand axis 1 the window coordinate is the update index's coordinate 1. -/
theorem window_1 (j : S128x1.Idx) :
    scatter_S128x128_S1_S128x1_01_n_1_0.window j (1 : Fin 2) = (j 1).val := by
  have h : (1 : Fin 2) ∈ S128x128.kept [] := by decide
  unfold ScatterDims.window
  rw [dif_pos (show (1 : Fin 2) ∈ scatter_S128x128_S1_S128x1_01_n_1_0.sKept from h)]
  rfl

/-- Update index `(r, c)` of the 128×1 column (so `c = 0`) lands at operand index `(r, 0)`, inside the operand. -/
theorem resultIdx_eq (j : S128x1.Idx) :
    scatter_S128x128_S1_S128x1_01_n_1_0.resultIdx? j idx0 = some (ix2 (j 0) (0 : Fin 128)) := by
  have h1 : (j 1).val = 0 := by have := idx2_lt1 j; omega
  have h0 : (j 0).val < 128 := idx2_lt0 j
  unfold ScatterDims.resultIdx?
  rw [dif_pos ?_]
  · congr 1
    funext a
    apply Fin.ext
    match a with
    | ⟨0, _⟩ =>
      show (scatter_S128x128_S1_S128x1_01_n_1_0.start j idx0 0 + (scatter_S128x128_S1_S128x1_01_n_1_0.window j 0 : Int)).toNat = (j 0).val
      rw [start_zero, window_0]; omega
    | ⟨1, _⟩ =>
      show (scatter_S128x128_S1_S128x1_01_n_1_0.start j idx0 1 + (scatter_S128x128_S1_S128x1_01_n_1_0.window j 1 : Int)).toNat = 0
      rw [start_zero, window_1]; omega
  · intro a
    match a with
    | ⟨0, _⟩ =>
      show 0 ≤ scatter_S128x128_S1_S128x1_01_n_1_0.start j idx0 0 + (scatter_S128x128_S1_S128x1_01_n_1_0.window j 0 : Int) ∧
        scatter_S128x128_S1_S128x1_01_n_1_0.start j idx0 0 + (scatter_S128x128_S1_S128x1_01_n_1_0.window j 0 : Int) < (128 : Nat)
      rw [start_zero, window_0]; omega
    | ⟨1, _⟩ =>
      show 0 ≤ scatter_S128x128_S1_S128x1_01_n_1_0.start j idx0 1 + (scatter_S128x128_S1_S128x1_01_n_1_0.window j 1 : Int) ∧
        scatter_S128x128_S1_S128x1_01_n_1_0.start j idx0 1 + (scatter_S128x128_S1_S128x1_01_n_1_0.window j 1 : Int) < (128 : Nat)
      rw [start_zero, window_1]; omega

/-- An update index that lands at `(k, 0)` is the column's index `(k, 0)`. -/
theorem eq_of_resultIdx (j : S128x1.Idx) (k : Fin 128)
    (h : scatter_S128x128_S1_S128x1_01_n_1_0.resultIdx? j idx0 = some (ix2 k (0 : Fin 128))) :
    j = ix2 k (0 : Fin 1) := by
  rw [resultIdx_eq] at h
  have hk : j 0 = k := congrFun (Option.some.inj h) (0 : Fin 2)
  have h1 : (j 1).val = 0 := by have := idx2_lt1 j; omega
  funext a
  match a with
  | ⟨0, _⟩ => exact hk
  | ⟨1, _⟩ => exact Fin.ext h1

/-! ## The padded array read in column 0 -/

/-- The 128×1 column written over column 0 of the 128×128 zero array, read at `(k, 0)`, is the column at `(k, 0)`:
    the update index `(k, 0)` lands there, and it is the only one that does. -/
theorem scatter_col0 (w : (⟨S128x1, .f32⟩ : BufTy).Contents (Elt F)) (k : Fin 128) :
    Host.scatter scatter_S128x128_S1_S128x1_01_n_1_0 (fun _ b => b)
        (broadcastInDim S128x128 ![] bcast_S_S128x128 (constant S_ .f32 0x00000000#32))
        (broadcastInDim S1 ![] bcast_S_S1 (constantI S_ 32 0#32)) w (ix2 k (0 : Fin 128))
      = w (ix2 k (0 : Fin 1)) := by
  rw [scatter_eq_fold]
  refine fold_hit _ _ _ _ _ _ ?_ ?_
  · refine ⟨S128x1.rowMajor (ix2 k (0 : Fin 1)), List.mem_finRange _, ?_⟩
    show scatter_S128x128_S1_S128x1_01_n_1_0.resultIdx? (S128x1.rowMajor.symm (S128x1.rowMajor (ix2 k (0 : Fin 1)))) idx0 = _
    rw [Equiv.symm_apply_apply]
    exact resultIdx_eq (ix2 k (0 : Fin 1))
  · intro n _ h
    show w (S128x1.rowMajor.symm n) = _
    rw [eq_of_resultIdx _ k h]

end Cert.KernelIdeal.PadColumn

end
-- ==== Proof.SecondProduct.lean ====
/-
  The second layer's product, two ways.

  The reference multiplies the 50 000 × 128 hidden features by the 128 × 1 weight column. The kernel multiplies them by
  the 128 × 128 array that holds that column in column 0 and zeros elsewhere, and keeps column 0 of the result. Entry
  (p, 0) of either is the sum over k of hidden (p, k) · weight (k, 0): the padded array is read only in column 0,
  where it is the column itself, so no law of arithmetic beyond that reading is needed.
-/
import proofs.«123007_j27419071217926_1_alg».proof.Proof.Gen.KernelIdeal
import proofs.«123007_j27419071217926_1_alg».proof.Proof.Layers
import proofs.«123007_j27419071217926_1_alg».proof.Proof.LibPlainProduct
import proofs.«123007_j27419071217926_1_alg».proof.Proof.PadColumn
import Idealize.ShloMosaic.Lib.ValueLayout

noncomputable section

namespace Cert.KernelIdeal.SecondProduct

open Idealize.ShloMosaic Idealize.ShloMosaic.ValueIdx Cert.KernelIdeal Cert.KernelIdeal.Gen Cert.PlainProduct

/-- The padded weight, read in column 0, is the weight column. -/
theorem padW_col0 {F : FTy → Type} [FloatOps F] (w : (⟨S128x1, .f32⟩ : BufTy).Contents (Elt F)) (k : Fin 128) :
    Layers.padW w (ix2 k (0 : Fin 128)) = w (ix2 k (0 : Fin 1)) := by
  unfold Layers.padW
  exact PadColumn.scatter_col0 w k

attribute [local irreducible] Cert.KernelIdeal.Layers.padW

/-- Column 0 of a 50 000 × 128 array, read at row p. -/
theorem col0_apply (y : FVec Ideal ⟨2, ![50000, 128]⟩ .f32) (p : Fin 50000) :
    Layers.col0 (F := Ideal) y (ix2 p (0 : Fin 1)) = y (ix2 p (0 : Fin 128)) := by
  unfold Layers.col0
  exact slice2_axis1_apply (n0 := 50000) (n1 := 128) (m := 1) 0 y slices_S50000x128_S50000x1_0_0 p (0 : Fin 1) (0 : Fin 128) rfl

/-- The product by the weight column is column 0 of the product by the padded weight. -/
theorem dot_col (h : FVec Ideal ⟨2, ![50000, 128]⟩ .f32) (w : FVec Ideal ⟨2, ![128, 1]⟩ .f32) :
    Host.dotGeneral (F := Ideal) (DotDims.plain 50000 128 1) none h w
      = Layers.col0 (F := Ideal) (prod (M := 50000) (K := 128) (N := 128) (φ₁ := .f32) (φ₂ := .f32) h (Layers.padW (F := Ideal) w)) := by
  funext i
  obtain ⟨p, u, rfl⟩ : ∃ (p : Fin 50000) (u : Fin 1), i = ix2 p u := ⟨i 0, i 1, eq_ix2 i⟩
  have hu : u = 0 := Subsingleton.elim _ _
  subst hu
  rw [col0_apply, prod_apply]
  refine (dotGeneral_apply (M := 50000) (K := 128) (N := 1) (φ₁ := .f32) (φ₂ := .f32) none h w p (0 : Fin 1)).trans ?_
  refine Finset.sum_congr rfl fun k _ => ?_
  rw [padW_col0 (F := Ideal) w k]

end Cert.KernelIdeal.SecondProduct

end
-- ==== Proof.RefWhole.lean ====
/-
  The reference's result is the network's result of its arguments: its first product is the first product, and its
  second product — the hidden features by the weight column — is column 0 of their product by the padded weight.
-/
import proofs.«123007_j27419071217926_1_alg».proof.Proof.RefValue
import proofs.«123007_j27419071217926_1_alg».proof.Proof.SecondProduct
import proofs.«123007_j27419071217926_1_alg».proof.Proof.Whole

set_option maxRecDepth 16384

noncomputable section

namespace Cert.ReferenceIdeal.RefWhole

open Idealize.ShloMosaic Idealize.ShloMosaic.TcCoe Idealize.SL.Sem
open Cert.ReferenceIdeal Cert.ReferenceIdeal.Gen Cert.PlainProduct

theorem res_value (m : (ℓ : Loc nD τ sig) → Buf (Elt Ideal) ℓ) (c : Dev nD) :
    RunP.res_main_v94 m c
      = Cert.KernelIdeal.Whole.value (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [RefValue.res_eq]
  unfold Cert.KernelIdeal.Whole.value
  have d1 : Host.dotGeneral (F := Ideal) dot_S50000x512_S512x128_S50000x128_1_0_0_1_n_n none
        (m ((c.tc : Thread nD τ).loc main_arg0)) (m ((c.tc : Thread nD τ).loc main_arg2))
      = Cert.KernelIdeal.Whole.first (m ((c.tc : Thread nD τ).loc main_arg0)) (m ((c.tc : Thread nD τ).loc main_arg2)) :=
    dotGeneral_eq_prod (M := 50000) (K := 512) (N := 128) (φ₁ := .f32) (φ₂ := .f32) none _ _
  rw [d1]
  exact congrArg (Cert.KernelIdeal.Layers.output (F := Ideal) _ _) (Cert.KernelIdeal.SecondProduct.dot_col _ _)

end Cert.ReferenceIdeal.RefWhole

end
-- ==== Proof.lean ====
/-
  A two-layer graph convolution, out = Â · relu(Â · (x · W1) + b1) · W2 + b2 with Â the degree-normalised adjacency
  (self-loops added), computed two ways over the extended reals.

  The kernel program forms the edge weights once on the host, computes x · W1 in 25 blocks of 2000 rows inside a
  kernel region (the operands passed through a narrower float format, which is the identity here), aggregates and
  rectifies on the host, pads the 128 × 1 weight W2 with zero columns to 128 × 128, computes the second product in a
  second kernel region and keeps column 0, and aggregates again. The reference forms the edge weights once per layer
  and takes both products on the host. The host operations of the two programs are the same functions of the same
  arrays, so they are carried unopened (Proof/Layers.lean); what is proved is that the arrays they are applied to
  agree: each region's output is the whole product of the arrays it found (Proof/Region0.lean, Proof/Region1.lean),
  the host product is the same sum (Proof/LibPlainProduct.lean), and column 0 of the product by the padded weight is
  the product by the weight column, because the padded array is only read where it is the column itself
  (Proof/PadColumn.lean, Proof/SecondProduct.lean). No law that would need finite entries is used.
-/
import proofs.«123007_j27419071217926_1_alg».proof.Defs
import proofs.«123007_j27419071217926_1_alg».proof.Proof.Gen.Kernel
import proofs.«123007_j27419071217926_1_alg».proof.Proof.Gen.Kernel.Frame
import proofs.«123007_j27419071217926_1_alg».proof.Proof.Gen.KernelIdeal
import proofs.«123007_j27419071217926_1_alg».proof.Proof.Gen.KernelIdeal.Frame
import proofs.«123007_j27419071217926_1_alg».proof.Proof.Gen.ReferenceIdeal
import proofs.«123007_j27419071217926_1_alg».proof.Proof.Gen.Pre_finite_inputs
import proofs.«123007_j27419071217926_1_alg».proof.Proof.RefRun
import proofs.«123007_j27419071217926_1_alg».proof.Proof.KernelValue
import proofs.«123007_j27419071217926_1_alg».proof.Proof.RefWhole
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The idealization rewrote nothing. -/
theorem preserves : Cert.preserves_Kernel_KernelIdeal := trivial

/-- From memories that agree on the arguments both programs end with the network's result of those arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.RefWhole.res_value, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
